-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S5000x512 : Shape := ⟨2, ![5000, 512]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S10000x128 : Shape := ⟨2, ![10000, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 118
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x64, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S1700000, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x64, .f32⟩
  | .hbm, ⟨109, _⟩ => ⟨S1700000x1, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S1x64, .f32⟩
  | .hbm, ⟨117, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_call1_v0 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x512_S5000x512_0_0 : ∀ a, (![0, 0] : Fin 2 → Nat) a + S5000x512.size a ≤ S5000x512.size a
  h_S5000x512 : 0 < S5000x512.numel
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x512_S512x128_S5000x128_1_0_0_1_n_n_wf : DotDims.WF S5000x512 S512x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000, .f32⟩
  | .hbm, ⟨103, _⟩ => ⟨S1700000, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x1, .f32⟩
  | .hbm, ⟨114, _⟩ => ⟨S1700000x64, .f32⟩
  | .hbm, ⟨115, _⟩ => ⟨S1700000x64, .f32⟩
  | .hbm, ⟨116, _⟩ => ⟨S_, .f32⟩
  | .hbm, ⟨117, _⟩ => ⟨S100000x64, .f32⟩
  | .hbm, ⟨118, _⟩ => ⟨S1700000x1, .i32⟩
  | .hbm, ⟨119, _⟩ => ⟨S100000x64, .f32⟩
  | .hbm, ⟨120, _⟩ => ⟨S1x64, .f32⟩
  | .hbm, ⟨121, _⟩ => ⟨S100000x64, .f32⟩
  | .hbm, ⟨122, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  The three whole-array functions a two-layer graph convolution is made of, over the extended reals.

  * `mm x w`: the matrix product, `(x · w)[i, j] = ∑ k, x[i, k] * w[k, j]`;
  * `biasRelu a b`: a row `b` (kept as a `[1, N]` array) added to every row of `a`, then the positive part,
    `max (a[i, j] + b[0, j]) 0`;
  * `biasAdd a b`: the same without the positive part, `a[i, j] + b[0, j]`;
  * `rowOf b`: a `[N]` vector as the one row of a `[1, N]` array.

  Each is the value of one dense stage of the layer, whichever way the stage is written: the product as a
  multiply-accumulate into zero block by block, or as one general dot product; the bias as a `[1, N]` row
  broadcast along the rows, or as a `[N]` vector broadcast twice. The lemmas below read those spellings at an
  index and find the same element.
-/
import Idealize.ShloMosaic.PureOps.Ideal
import Idealize.ShloMosaic.PureOps.Ideal.Laws
import Idealize.ShloMosaic.Lib.ValueIdx
import Idealize.ShloMosaic.Lib.Pipeline.Value
import proofs.«155988_j7215545057921_1_alg».proof.Proof.LibDot2

noncomputable section

open scoped BigOperators

namespace Cert.Gcn

open Idealize.ShloMosaic Idealize.ShloMosaic.ValueIdx Idealize.ShloMosaic.Dot2

/-- The matrix product of an `[M, K]` array by a `[K, N]` array, index by index. -/
def mm {M K N : Nat} (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

/-- A `[1, N]` row added to every row of an `[M, N]` array, then the positive part. -/
def biasRelu {M N : Nat} (a : FVec Ideal ⟨2, ![M, N]⟩ .f32) (b : FVec Ideal ⟨2, ![1, N]⟩ .f32) :
    FVec Ideal ⟨2, ![M, N]⟩ .f32 :=
  fun i => max (a i + b (ix2 0 (i 1))) (Ideal.ofBits .f32 0x00000000#32)

/-- A `[1, N]` row added to every row of an `[M, N]` array. -/
def biasAdd {M N : Nat} (a : FVec Ideal ⟨2, ![M, N]⟩ .f32) (b : FVec Ideal ⟨2, ![1, N]⟩ .f32) :
    FVec Ideal ⟨2, ![M, N]⟩ .f32 :=
  fun i => a i + b (ix2 0 (i 1))

/-- A `[N]` vector as the one row of a `[1, N]` array. -/
def rowOf {N : Nat} (b : FVec Ideal ⟨1, ![N]⟩ .f32) : FVec Ideal ⟨2, ![1, N]⟩ .f32 :=
  fun i => b (ix1 (i 1))

theorem mm_apply {M K N : Nat} (x : FVec Ideal ⟨2, ![M, K]⟩ .f32) (w : FVec Ideal ⟨2, ![K, N]⟩ .f32)
    (p : Fin M) (q : Fin N) : mm x w (ix2 p q) = ∑ k : Fin K, x (ix2 p k) * w (ix2 k q) := rfl

/-- The host's general dot product with the plain matrix product's dimension numbers is `mm`. -/
theorem host_dotGeneral_eq_mm {M K N : Nat}
    (wf : DotDims.WF ⟨2, ![M, K]⟩ ⟨2, ![K, N]⟩ ⟨2, ![M, N]⟩ [1] [0] [0] [1] [] [])
    (prec : Option ContractPrecision) (l : FVec Ideal ⟨2, ![M, K]⟩ .f32) (r : FVec Ideal ⟨2, ![K, N]⟩ .f32) :
    Host.dotGeneral (mmDims M K N wf) prec l r = mm l r := by
  funext i
  obtain ⟨p, q, rfl⟩ : ∃ (p : Fin M) (q : Fin N), i = ix2 p q := ⟨i 0, i 1, eq_ix2 i⟩
  rw [host_dotGeneral_mm_apply, mm_apply]

end Cert.Gcn

end
-- ==== Proof.Region0.lean ====
/-
  What the first product region leaves in its result array.

  The region multiplies the `[100000, 512]` features by the `[512, 128]` weight, 5000 rows at a grid point: point
  `t` loads rows `5000 t … 5000 t + 4999` of the features and the whole weight, multiplies them into a zero
  accumulator, and writes the `[5000, 128]` product back as rows `5000 t … 5000 t + 4999` of the result. At the
  ideal instance the entry `(p, q)` of that block is `∑ k, x[5000 t + p, k] * w[k, q]`, which is the entry
  `(5000 t + p, q)` of the whole product; the 20 blocks tile the 100000 rows, so the array ends as the whole
  product `Cert.Gcn.mm` of the two arrays the region was entered with.
-/
import proofs.«155988_j7215545057921_1_alg».proof.Proof.Gen.KernelIdeal.Frame
import proofs.«155988_j7215545057921_1_alg».proof.Proof.Spec
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The block product at `(p, q)`: row `p` of the feature block against column `q` of the weight. -/
theorem pay0_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  try simp only [shapeCast_self]
  exact Dot2.matmul_zero_mm_apply dot_S5000x512_S512x128_S5000x128_1_0_0_1_n_n_wf none x0 x1 p q

/-- The three index maps over the grid: the feature window and the result window move together down the rows,
    the weight window stays, and no window moves along the columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block of rows is some point's. -/
theorem idx_onto0 : ∀ (b : Fin 20), ∃ t : Fin cfg0.N, win0_2.index t = ![b.val, 0] :=
  (by decide +kernel : ∀ (b : Fin 20), ∃ t : Fin grid0.N, win0_2.index t = ![b.val, 0])

/-- What point `t` writes back is block `t` of the whole product of the arrays the region was entered with. -/
theorem flushed0 (c : Dev nD) (t : Fin cfg0.N) :
    (dat0 V c).flushed 2 t
      = ((cfg0.win 2).blk t).view.read (Elt Ideal)
          (Cert.Gcn.mm (M := 100000) (K := 512) (N := 128) (V c main_arg0) (V c main_arg2)) := by
  show (cfg0.win 2).cut (grid0.coords t) ((dat0 V c).after 2 t) = _
  rw [after0_2]
  unfold out0_2
  rw [View.canon_unit_zero origin2]
  simp only [View.ld_unit_zero (S := S5000x512) origin2, View.ld_unit_zero (S := S512x128) origin2]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.mm (M := 100000) (K := 512) (N := 128) (V c main_arg0) (V c main_arg2) (((cfg0.win 2).blk t).view.emb (ix2 p q))
  refine (pay0_apply (iblk0 V c 0 t) (iblk0 V c 1 t) p q).trans ?_
  unfold Cert.Gcn.mm
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  have hw : iblk0 V c 1 t (ix2 k q)
      = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  rw [hx, hw]

/-- An index of the result array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks of 5000 rows cover the 100000 rows. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two arrays it was entered with. -/
theorem region0_array (c : Dev nD) :
    (dat0 V c).arrAt 2 cfg0.N = Cert.Gcn.mm (M := 100000) (K := 512) (N := 128) (V c main_arg0) (V c main_arg2) :=
  (dat0 V c).arrAt_eq_of_cover 2 _ (fun t _ => flushed0 V c t) cover0

end Cert.KernelIdeal.RegionValue

end
-- ==== Proof.Region1Pay.lean ====
/-
  The first bias region's body at an index: on a `[10000, 128]` block `x0` of the aggregate and the `[1, 128]` bias
  row `x1` it stores `max (x0[p, q] + x1[0, q]) 0` — the row broadcast down the block's rows, the sum, and the
  maximum against the zero splat, each read at `(p, q)`; the two same-shape casts are the identity.
-/
import proofs.«155988_j7215545057921_1_alg».proof.Proof.Gen.KernelIdeal.Skeleton
import Idealize.ShloMosaic.PureOps.Ideal
import Idealize.ShloMosaic.Lib.ValueIdx
import Idealize.ShloMosaic.Lib.Pipeline.Value

noncomputable section

namespace Cert.KernelIdeal.RegionValue

open Cert.KernelIdeal Cert.KernelIdeal.Gen Idealize.ShloMosaic
open Idealize.ShloMosaic.ValueIdx

/-- The block's value at `(p, q)`: the aggregate's entry plus the bias row's entry of that column, or zero if that is negative. -/
theorem pay1_apply (x0 : Vec Ideal S10000x128 .f32) (x1 : Vec Ideal S1x128 .f32) (p : Fin 10000) (q : Fin 128) :
    k1_pay1 (F := Ideal) x0 x1 (ix2 p q) = max (x0 (ix2 p q) + x1 (ix2 0 q)) (Ideal.ofBits .f32 0x00000000#32) := by
  show maximumf (addf (shapeCast S10000x128 x0 shapeCasts_S10000x128_S10000x128) (broadcastTo S10000x128 (shapeCast S1x128 x1 shapeCasts_S1x128_S1x128) broadcasts_S1x128_S10000x128)) (broadcast S10000x128 (Scalar.ofBits (F := Ideal) .f32 0x00000000#32)) (ix2 p q) = _
  rw [maximumf_apply, addf_apply, broadcast_apply, shapeCast_self, shapeCast_self,
    broadcastTo_apply x1 broadcasts_S1x128_S10000x128 (ix2 p q) (ix2 0 q)
      (fun a => match a with | ⟨0, _⟩ => rfl | ⟨1, _⟩ => rfl)]
  rfl

end Cert.KernelIdeal.RegionValue

end
-- ==== Proof.Region1.lean ====
/-
  What the first bias region leaves in its result array.

  The region adds the bias row to every row of the aggregated `[100000, 128]` array and takes the positive part,
  10000 rows at a grid point: point `t` loads rows `10000 t … 10000 t + 9999` of the aggregate and the `[1, 128]`
  bias row, and writes `max (a[r, j] + b[0, j]) 0` back as the same rows of the result. The 10 blocks tile the
  100000 rows, so the array ends as `Cert.Gcn.biasRelu` of the two arrays the region was entered with.
-/
import proofs.«155988_j7215545057921_1_alg».proof.Proof.Gen.KernelIdeal.Frame
import proofs.«155988_j7215545057921_1_alg».proof.Proof.Spec
import proofs.«155988_j7215545057921_1_alg».proof.Proof.Region1Pay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2_1 : (![0, 0] : Fin 2 → Nat) = fun _ => 0 := funext fun a => by fin_cases a <;> rfl

/-- The index maps over the grid: the aggregate's window and the result's move together down the rows, the bias
    row's window stays, and no window moves along the columns. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every block of rows is some point's. -/
theorem idx_onto1 : ∀ (b : Fin 10), ∃ t : Fin cfg1.N, win1_2.index t = ![b.val, 0] :=
  (by decide +kernel : ∀ (b : Fin 10), ∃ t : Fin grid1.N, win1_2.index t = ![b.val, 0])

/-- What point `t` writes back is block `t` of `biasRelu` of the arrays the region was entered with. -/
theorem flushed1 (c : Dev nD) (t : Fin cfg1.N) :
    (dat1 V c).flushed 2 t
      = ((cfg1.win 2).blk t).view.read (Elt Ideal)
          (Cert.Gcn.biasRelu (M := 100000) (N := 128) (V c main_v43) (V c main_v44)) := by
  show (cfg1.win 2).cut (grid1.coords t) ((dat1 V c).after 2 t) = _
  rw [after1_2]
  unfold out1_2
  rw [View.canon_unit_zero origin2_1]
  simp only [View.ld_unit_zero (S := S10000x128) origin2_1, View.ld_unit_zero (S := S1x128) origin2_1]
  obtain ⟨e0, e1, e2, e3, e4, e5⟩ := idx_facts1 t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q)
    = Cert.Gcn.biasRelu (M := 100000) (N := 128) (V c main_v43) (V c main_v44) (((cfg1.win 2).blk t).view.emb (ix2 p q))
  refine (pay1_apply (iblk1 V c 0 t) (iblk1 V c 1 t) p q).trans ?_
  unfold Cert.Gcn.biasRelu
  have hx : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have hb : iblk1 V c 1 t (ix2 0 q)
      = V c main_v44 (ix2 0 ((((cfg1.win 2).blk t).view.emb (ix2 p q)) 1)) := by
    show V c main_v44 (((cfg1.win 1).blk t).view.emb (ix2 0 q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hx, hb]

/-- An index of the result array is in point `t`'s block iff each coordinate is in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The 10 blocks of 10000 rows cover the 100000 rows. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: `biasRelu` of the two arrays it was entered with. -/
theorem region1_array (c : Dev nD) :
    (dat1 V c).arrAt 2 cfg1.N = Cert.Gcn.biasRelu (M := 100000) (N := 128) (V c main_v43) (V c main_v44) :=
  (dat1 V c).arrAt_eq_of_cover 2 _ (fun t _ => flushed1 V c t) cover1

end Cert.KernelIdeal.RegionValue

end
-- ==== Proof.Region2.lean ====
/-
  What the second product region leaves in its result array.

  The region multiplies the `[100000, 128]` hidden features by the `[128, 64]` weight, 5000 rows at a grid point: point
  `t` loads rows `5000 t … 5000 t + 4999` of the features and the whole weight, multiplies them into a zero
  accumulator, and writes the `[5000, 64]` product back as rows `5000 t … 5000 t + 4999` of the result. At the
  ideal instance the entry `(p, q)` of that block is `∑ k, h[5000 t + p, k] * w[k, q]`, which is the entry
  `(5000 t + p, q)` of the whole product; the 20 blocks tile the 100000 rows, so the array ends as the whole
  product `Cert.Gcn.mm` of the two arrays the region was entered with.
-/
import proofs.«155988_j7215545057921_1_alg».proof.Proof.Gen.KernelIdeal.Frame
import proofs.«155988_j7215545057921_1_alg».proof.Proof.Spec
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2_2 : (![0, 0] : Fin 2 → Nat) = fun _ => 0 := funext fun a => by fin_cases a <;> rfl

/-- The block product at `(p, q)`: row `p` of the feature block against column `q` of the weight. -/
theorem pay2_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  try simp only [shapeCast_self]
  exact Dot2.matmul_zero_mm_apply dot_S5000x128_S128x64_S5000x64_1_0_0_1_n_n_wf none x0 x1 p q

/-- The three index maps over the grid: the feature window and the result window move together down the rows,
    the weight window stays, and no window moves along the columns. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every block of rows is some point's. -/
theorem idx_onto2 : ∀ (b : Fin 20), ∃ t : Fin cfg2.N, win2_2.index t = ![b.val, 0] :=
  (by decide +kernel : ∀ (b : Fin 20), ∃ t : Fin grid2.N, win2_2.index t = ![b.val, 0])

/-- What point `t` writes back is block `t` of the whole product of the arrays the region was entered with. -/
theorem flushed2 (c : Dev nD) (t : Fin cfg2.N) :
    (dat2 V c).flushed 2 t
      = ((cfg2.win 2).blk t).view.read (Elt Ideal)
          (Cert.Gcn.mm (M := 100000) (K := 128) (N := 64) (V c main_v45) (V c main_arg4)) := by
  show (cfg2.win 2).cut (grid2.coords t) ((dat2 V c).after 2 t) = _
  rw [after2_2]
  unfold out2_2
  rw [View.canon_unit_zero origin2_2]
  simp only [View.ld_unit_zero (S := S5000x128) origin2_2, View.ld_unit_zero (S := S128x64) origin2_2]
  obtain ⟨e0, e1, e2, e3, e4, e5⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Cert.Gcn.mm (M := 100000) (K := 128) (N := 64) (V c main_v45) (V c main_arg4) (((cfg2.win 2).blk t).view.emb (ix2 p q))
  refine (pay2_apply (iblk2 V c 0 t) (iblk2 V c 1 t) p q).trans ?_
  unfold Cert.Gcn.mm
  refine Finset.sum_congr rfl fun k _ => ?_
  have hx : iblk2 V c 0 t (ix2 p k)
      = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q)
      = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hx, hw]

/-- An index of the result array is in point `t`'s block iff each coordinate is in the block's range. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The 20 blocks of 5000 rows cover the 100000 rows. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the whole product of the two arrays it was entered with. -/
theorem region2_array (c : Dev nD) :
    (dat2 V c).arrAt 2 cfg2.N = Cert.Gcn.mm (M := 100000) (K := 128) (N := 64) (V c main_v45) (V c main_arg4) :=
  (dat2 V c).arrAt_eq_of_cover 2 _ (fun t _ => flushed2 V c t) cover2

end Cert.KernelIdeal.RegionValue

end
-- ==== Proof.Region3Pay.lean ====
/-
  The last bias region's body at an index: on a `[10000, 64]` block `x0` of the aggregate and the `[1, 64]` bias row
  `x1` it stores `x0[p, q] + x1[0, q]` — the row broadcast down the block's rows and the sum, each read at `(p, q)`;
  the two same-shape casts are the identity.
-/
import proofs.«155988_j7215545057921_1_alg».proof.Proof.Gen.KernelIdeal.Skeleton
import Idealize.ShloMosaic.PureOps.Ideal
import Idealize.ShloMosaic.Lib.ValueIdx
import Idealize.ShloMosaic.Lib.Pipeline.Value

noncomputable section

namespace Cert.KernelIdeal.RegionValue

open Cert.KernelIdeal Cert.KernelIdeal.Gen Idealize.ShloMosaic
open Idealize.ShloMosaic.ValueIdx

/-- The block's value at `(p, q)`: the aggregate's entry plus the bias row's entry of that column. -/
theorem pay3_apply (x0 : Vec Ideal S10000x64 .f32) (x1 : Vec Ideal S1x64 .f32) (p : Fin 10000) (q : Fin 64) :
    k3_pay1 (F := Ideal) x0 x1 (ix2 p q) = x0 (ix2 p q) + x1 (ix2 0 q) := by
  show (addf (shapeCast S10000x64 x0 shapeCasts_S10000x64_S10000x64) (broadcastTo S10000x64 (shapeCast S1x64 x1 shapeCasts_S1x64_S1x64) broadcasts_S1x64_S10000x64) : FVec Ideal S10000x64 .f32) (ix2 p q) = _
  rw [addf_apply, shapeCast_self, shapeCast_self,
    broadcastTo_apply x1 broadcasts_S1x64_S10000x64 (ix2 p q) (ix2 0 q)
      (fun a => match a with | ⟨0, _⟩ => rfl | ⟨1, _⟩ => rfl)]

end Cert.KernelIdeal.RegionValue

end
-- ==== Proof.Region3.lean ====
/-
  What the last bias region leaves in its result array.

  The region adds the bias row to every row of the aggregated `[100000, 64]` array,
  10000 rows at a grid point: point `t` loads rows `10000 t … 10000 t + 9999` of the aggregate and the `[1, 64]`
  bias row, and writes `a[r, j] + b[0, j]` back as the same rows of the result. The 10 blocks tile the
  100000 rows, so the array ends as `Cert.Gcn.biasAdd` of the two arrays the region was entered with.
-/
import proofs.«155988_j7215545057921_1_alg».proof.Proof.Gen.KernelIdeal.Frame
import proofs.«155988_j7215545057921_1_alg».proof.Proof.Spec
import proofs.«155988_j7215545057921_1_alg».proof.Proof.Region3Pay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2_3 : (![0, 0] : Fin 2 → Nat) = fun _ => 0 := funext fun a => by fin_cases a <;> rfl

/-- The index maps over the grid: the aggregate's window and the result's move together down the rows, the bias
    row's window stays, and no window moves along the columns. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every block of rows is some point's. -/
theorem idx_onto3 : ∀ (b : Fin 10), ∃ t : Fin cfg3.N, win3_2.index t = ![b.val, 0] :=
  (by decide +kernel : ∀ (b : Fin 10), ∃ t : Fin grid3.N, win3_2.index t = ![b.val, 0])

/-- What point `t` writes back is block `t` of `biasAdd` of the arrays the region was entered with. -/
theorem flushed3 (c : Dev nD) (t : Fin cfg3.N) :
    (dat3 V c).flushed 2 t
      = ((cfg3.win 2).blk t).view.read (Elt Ideal)
          (Cert.Gcn.biasAdd (M := 100000) (N := 64) (V c main_v85) (V c main_v86)) := by
  show (cfg3.win 2).cut (grid3.coords t) ((dat3 V c).after 2 t) = _
  rw [after3_2]
  unfold out3_2
  rw [View.canon_unit_zero origin2_3]
  simp only [View.ld_unit_zero (S := S10000x64) origin2_3, View.ld_unit_zero (S := S1x64) origin2_3]
  obtain ⟨e0, e1, e2, e3, e4, e5⟩ := idx_facts3 t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (ix2 p q)
    = Cert.Gcn.biasAdd (M := 100000) (N := 64) (V c main_v85) (V c main_v86) (((cfg3.win 2).blk t).view.emb (ix2 p q))
  refine (pay3_apply (iblk3 V c 0 t) (iblk3 V c 1 t) p q).trans ?_
  unfold Cert.Gcn.biasAdd
  have hx : iblk3 V c 0 t (ix2 p q) = V c main_v85 (((cfg3.win 2).blk t).view.emb (ix2 p q)) := by
    show V c main_v85 (((cfg3.win 0).blk t).view.emb (ix2 p q)) = _
    refine congrArg (V c main_v85) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hb : iblk3 V c 1 t (ix2 0 q)
      = V c main_v86 (ix2 0 ((((cfg3.win 2).blk t).view.emb (ix2 p q)) 1)) := by
    show V c main_v86 (((cfg3.win 1).blk t).view.emb (ix2 0 q)) = _
    refine congrArg (V c main_v86) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hx, hb]

/-- An index of the result array is in point `t`'s block iff each coordinate is in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v87).slice (win3_2.rect t)).set ↔ _
  rw [View.set_slice_whole, Rect.mem_set_unit]
  exact Iff.rfl

/-- The 10 blocks of 10000 rows cover the 100000 rows. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the region: `biasAdd` of the two arrays it was entered with. -/
theorem region3_array (c : Dev nD) :
    (dat3 V c).arrAt 2 cfg3.N = Cert.Gcn.biasAdd (M := 100000) (N := 64) (V c main_v85) (V c main_v86) :=
  (dat3 V c).arrAt_eq_of_cover 2 _ (fun t _ => flushed3 V c t) cover3

end Cert.KernelIdeal.RegionValue

end
-- ==== Proof.Aggregate.lean ====
/-
  One graph-convolution aggregation step, as a function of the transformed features and the edge list,
  written with the reference program's own operations, for any float family.

  The edge list `e : i32[2, 1600000]` gives the sources (row 0) and the targets (row 1); every node gets a
  self loop, so both rows are lengthened by `0 … 99999` (`withLoops`). An index is normalised the way
  `jnp` indexing does it (`wrapIdx`: a negative one has the extent added). The in-degree counts, per node,
  the targets that hit it (`degree`: ones scattered and added at the targets); `invSqrtDeg` is its
  inverse square root where the degree is positive and zero elsewhere; an edge's weight is the product of
  that number at its source and at its target (`edgeNorm`). The aggregation gathers each edge's source
  row of `xt`, scales it by the edge's weight, and adds it into the target's row (`aggregate128`,
  `aggregate64`: the same step at the two feature widths). `twoLayers` composes the reference's two
  layers: product, aggregation, bias, positive part; product, aggregation, bias.
-/
import proofs.«155988_j7215545057921_1_alg».proof.ReferenceIdeal
import proofs.«155988_j7215545057921_1_alg».proof.Proof.Gen.ReferenceIdeal

noncomputable section

namespace Cert.Gcn

open Cert.ReferenceIdeal Cert.ReferenceIdeal.Gen Idealize.ShloMosaic

variable {F : FTy → Type} [FloatOps F]

/-- Row 0 of the edge list: the sources. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the targets. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The self loops appended: `0 … 99999` after the 1600000 edge endpoints. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

/-- An index normalised: a negative one has the extent 100000 added. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The in-degree of every node: a one added at each target. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- The inverse square root of the degree where it is positive, zero elsewhere. -/
def invSqrtDeg (d : (⟨S1700000, .i32⟩ : BufTy).Contents (Elt F)) : (⟨S100000, .f32⟩ : BufTy).Contents (Elt F) :=
  select (cmpf (F := F) .ogt (degree d) (broadcastInDim S100000 ![] bcast_S_S100000 (constant (F := F) S_ .f32 0x00000000#32)))
    (Host.rsqrt (degree d))
    (broadcastInDim S100000 ![] bcast_S_S100000 (constant (F := F) S_ .f32 0x00000000#32))

/-- An edge's weight: the inverse square root of the degree at its source times that at its target. -/
def edgeNorm (s d : (⟨S1700000, .i32⟩ : BufTy).Contents (Elt F)) : (⟨S1700000, .f32⟩ : BufTy).Contents (Elt F) :=
  mulf
    (Host.gather gather_S100000_S1700000x1_S1700000_n_0_n_n_0_1_1 (invSqrtDeg d)
      (broadcastInDim S1700000x1 ![0] bcast_S1700000_S1700000x1_0 (wrapIdx s)))
    (Host.gather gather_S100000_S1700000x1_S1700000_n_0_n_n_0_1_1 (invSqrtDeg d)
      (broadcastInDim S1700000x1 ![0] bcast_S1700000_S1700000x1_0 (wrapIdx d)))

/-- The aggregation at feature width 128: each edge's source row, scaled by the edge's weight, added into
    its target's row. -/
def aggregate128 (xt : (⟨S100000x128, .f32⟩ : BufTy).Contents (Elt F))
    (s d : (⟨S1700000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf
      (Host.gather gather_S100000x128_S1700000x1_S1700000x128_1_0_n_n_0_1_1128 xt
        (broadcastInDim S1700000x1 ![0] bcast_S1700000_S1700000x1_0 (wrapIdx s)))
      (broadcastInDim S1700000x128 ![0, 1] bcast_S1700000x1_S1700000x128_0_1
        (broadcastInDim S1700000x1 ![0] bcast_S1700000_S1700000x1_0 (edgeNorm s d))))

/-- The aggregation at feature width 64. -/
def aggregate64 (xt : (⟨S100000x64, .f32⟩ : BufTy).Contents (Elt F))
    (s d : (⟨S1700000, .i32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf
      (Host.gather gather_S100000x64_S1700000x1_S1700000x64_1_0_n_n_0_1_164 xt
        (broadcastInDim S1700000x1 ![0] bcast_S1700000_S1700000x1_0 (wrapIdx s)))
      (broadcastInDim S1700000x64 ![0, 1] bcast_S1700000x1_S1700000x64_0_1
        (broadcastInDim S1700000x1 ![0] bcast_S1700000_S1700000x1_0 (edgeNorm s d))))

/-- The reference's two layers over the argument arrays: `x`, the edge list, and each layer's weight and bias. -/
def twoLayers (x : (⟨S100000x512, .f32⟩ : BufTy).Contents (Elt F)) (e : (⟨S2x1600000, .i32⟩ : BufTy).Contents (Elt F))
    (w1 : (⟨S512x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  addf
    (aggregate64
      (Host.dotGeneral dot_S100000x128_S128x64_S100000x64_1_0_0_1_n_n none
        (maximumf
          (addf
            (aggregate128 (Host.dotGeneral dot_S100000x512_S512x128_S100000x128_1_0_0_1_n_n none x w1)
              (withLoops (srcRow e)) (withLoops (dstRow e)))
            (broadcastInDim S100000x128 ![0, 1] bcast_S1x128_S100000x128_0_1 (broadcastInDim S1x128 ![1] bcast_S128_S1x128_1 b1)))
          (broadcastInDim S100000x128 ![] bcast_S_S100000x128 (constant (F := F) S_ .f32 0x00000000#32)))
        w2)
      (withLoops (srcRow e)) (withLoops (dstRow e)))
    (broadcastInDim S100000x64 ![0, 1] bcast_S1x64_S100000x64_0_1 (broadcastInDim S1x64 ![1] bcast_S64_S1x64_1 b2))

end Cert.Gcn

end
-- ==== Proof.Gcn.lean ====
/-
  The two-layer graph convolution as one function of the argument arrays, over the extended reals:

      h   = max (A (x · w1) + b1) 0
      out = A (h · w2) + b2

  with `·` the matrix product (`mm`), `A` the normalised neighbourhood aggregation over the edge list with self loops
  (`aggregate128`, `aggregate64`: one step, at the two feature widths) and each bias added to every row
  (`biasRelu`, `biasAdd`, the bias as a `[1, N]` row). Both programs compute this function: the kernel with the
  products and the bias steps as tiled regions, the reference with one operation each.
-/
import proofs.«155988_j7215545057921_1_alg».proof.Proof.Aggregate
import proofs.«155988_j7215545057921_1_alg».proof.Proof.Spec

noncomputable section

namespace Cert.Gcn

open Cert.ReferenceIdeal Cert.ReferenceIdeal.Gen Idealize.ShloMosaic

/-- The whole computation, from the features `x`, the edge list `e`, and each layer's weight and bias. -/
def gcn (x : (⟨S100000x512, .f32⟩ : BufTy).Contents (Elt Ideal)) (e : (⟨S2x1600000, .i32⟩ : BufTy).Contents (Elt Ideal))
    (w1 : (⟨S512x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  biasAdd (M := 100000) (N := 64)
    (aggregate64 (F := Ideal)
      (mm (M := 100000) (K := 128) (N := 64)
        (biasRelu (M := 100000) (N := 128)
          (aggregate128 (F := Ideal) (mm (M := 100000) (K := 512) (N := 128) x w1) (withLoops (srcRow e)) (withLoops (dstRow e)))
          (rowOf (N := 128) b1))
        w2)
      (withLoops (srcRow e)) (withLoops (dstRow e)))
    (rowOf (N := 64) b2)

end Cert.Gcn

end
-- ==== Proof.KernelFold.lean ====
/-
  The kernel program computes the two-layer graph convolution `Cert.Gcn.gcn`.

  Its @main is four tiled regions among stretches of host operations; the buffer contents at each boundary are a
  fold from the launch memory. The fold is read here buffer by buffer:
    * the first stretch cuts the two rows out of the edge list (`srcRow`, `dstRow`), and no later segment writes them;
    * the first region leaves the product `x · w1` (`mm`);
    * the next stretches are the reference's own aggregation step on that product (`aggregate128`) — the same
      operations in the same order, so for any float family the two terms are the same text —, and the bias as a row;
    * the second region leaves `biasRelu`, the third the product with `w2`; the stretches after it are the
      aggregation at width 64 and the second bias as a row; the last region leaves `biasAdd`.
  Composed: the result buffer ends at `gcn` of the argument arrays.
-/
import proofs.«155988_j7215545057921_1_alg».proof.Proof.Gen.KernelIdeal.Frame
import proofs.«155988_j7215545057921_1_alg».proof.Proof.Region0
import proofs.«155988_j7215545057921_1_alg».proof.Proof.Region1
import proofs.«155988_j7215545057921_1_alg».proof.Proof.Region2
import proofs.«155988_j7215545057921_1_alg».proof.Proof.Region3
import proofs.«155988_j7215545057921_1_alg».proof.Proof.Gcn
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

/-! ## For any float family: the host stretches -/

section AnyFamily

variable {F : FTy → Type} [FloatOps F]
variable (m : (ℓ : Loc nD τ sig) → Buf (Elt F) ℓ) (ρ : Dev nD → PrngReg)

/-- After the first stretch the sources' buffer holds row 0 of the edge list. -/
theorem W1_v1 (c : Dev nD) :
    W1 m ρ c (Proc.devRef .tc main_v1) = Cert.Gcn.srcRow (m ((c : Thread nD τ).loc main_arg1)) := by
  show StableHlo.after hostOps0 (W0 m ρ c) (Proc.devRef .tc main_v1) = _
  simp only [hostOps0]
  after_results
  rfl

/-- After the first stretch the targets' buffer holds row 1 of the edge list. -/
theorem W1_v3 (c : Dev nD) :
    W1 m ρ c (Proc.devRef .tc main_v3) = Cert.Gcn.dstRow (m ((c : Thread nD τ).loc main_arg1)) := by
  show StableHlo.after hostOps0 (W0 m ρ c) (Proc.devRef .tc main_v3) = _
  simp only [hostOps0]
  after_results
  rfl

/-- The first stretch writes no argument. -/
theorem W1_arg (c : Dev nD) (b : Ref sig .tc)
    (hb : b ≠ main_v0 ∧ b ≠ main_v1 ∧ b ≠ main_v2 ∧ b ≠ main_v3) :
    W1 m ρ c (Proc.devRef .tc b) = m ((c : Thread nD τ).loc b) := by
  show StableHlo.after hostOps0 (W0 m ρ c) (Proc.devRef .tc b) = _
  simp only [hostOps0, after_cons, after_nil]
  rw [reshape_result_ne _ _ _ _ _ _ _ hb.2.2.2, unary_result_ne _ _ _ _ _ _ hb.2.2.1,
    reshape_result_ne _ _ _ _ _ _ _ hb.2.1, unary_result_ne _ _ _ _ _ _ hb.1]

set_option maxHeartbeats 2000000 in
/-- The stretches between the first and the second region: the aggregation step at width 128 on the first region's
    result, from the two rows of the edge list as that region left them. -/
theorem W5_v43 (c : Dev nD) :
    W5 m ρ c (Proc.devRef .tc main_v43)
      = Cert.Gcn.aggregate128 (W2 m ρ c (Proc.devRef .tc main_v4))
          (Cert.Gcn.withLoops (W2 m ρ c (Proc.devRef .tc main_v1)))
          (Cert.Gcn.withLoops (W2 m ρ c (Proc.devRef .tc main_v3))) := by
  show StableHlo.after hostOps1_2 (StableHlo.after hostOps1_1 (StableHlo.after hostOps1 (W2 m ρ c))) (Proc.devRef .tc main_v43) = _
  simp only [hostOps1, hostOps1_1, hostOps1_2]
  after_results_simp
  rfl

/-- Those stretches write neither row of the edge list nor an argument. -/
theorem W5_v1 (c : Dev nD) : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  simp only [hostOps1, hostOps1_1, hostOps1_2]
  after_results_simp
theorem W5_v3 (c : Dev nD) : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  simp only [hostOps1, hostOps1_1, hostOps1_2]
  after_results_simp
theorem W5_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  simp only [hostOps1, hostOps1_1, hostOps1_2]
  after_results_simp
theorem W5_arg5 (c : Dev nD) : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  simp only [hostOps1, hostOps1_1, hostOps1_2]
  after_results_simp

/-- Their last operation reshapes the first bias to a row. -/
theorem W5_v44 (c : Dev nD) :
    W5 m ρ c (Proc.devRef .tc main_v44)
      = fun i => shapeCast S1x128 (W2 m ρ c (Proc.devRef .tc main_arg3)) shapeCasts_S128_S1x128 i := by
  show StableHlo.after hostOps1_2 (StableHlo.after hostOps1_1 (StableHlo.after hostOps1 (W2 m ρ c))) (Proc.devRef .tc main_v44) = _
  simp only [hostOps1, hostOps1_1, hostOps1_2]
  after_results_simp
  rfl

set_option maxHeartbeats 2000000 in
/-- The stretches between the third and the last region: the aggregation step at width 64 on the third region's
    result, from the two rows of the edge list as that region left them. -/
theorem W10_v85 (c : Dev nD) :
    W10 m ρ c (Proc.devRef .tc main_v85)
      = Cert.Gcn.aggregate64 (W7 m ρ c (Proc.devRef .tc main_v46))
          (Cert.Gcn.withLoops (W7 m ρ c (Proc.devRef .tc main_v1)))
          (Cert.Gcn.withLoops (W7 m ρ c (Proc.devRef .tc main_v3))) := by
  show StableHlo.after hostOps3_2 (StableHlo.after hostOps3_1 (StableHlo.after hostOps3 (W7 m ρ c))) (Proc.devRef .tc main_v85) = _
  simp only [hostOps3, hostOps3_1, hostOps3_2]
  after_results_simp
  rfl

/-- Their last operation reshapes the second bias to a row. -/
theorem W10_v86 (c : Dev nD) :
    W10 m ρ c (Proc.devRef .tc main_v86)
      = fun i => shapeCast S1x64 (W7 m ρ c (Proc.devRef .tc main_arg5)) shapeCasts_S64_S1x64 i := by
  show StableHlo.after hostOps3_2 (StableHlo.after hostOps3_1 (StableHlo.after hostOps3 (W7 m ρ c))) (Proc.devRef .tc main_v86) = _
  simp only [hostOps3, hostOps3_1, hostOps3_2]
  after_results_simp
  rfl

end AnyFamily

/-! ## At the ideal instance: the regions, and the whole -/

section AtIdeal

variable (m : (ℓ : Loc nD τ sig) → Buf (Elt Ideal) ℓ) (ρ : Dev nD → PrngReg)

/-- A `[N]` vector reshaped to `[1, N]` is the vector as a row. -/
theorem reshape_row128 (b : S128.Idx → Ideal .f32) :
    (fun i => shapeCast S1x128 b shapeCasts_S128_S1x128 i) = Cert.Gcn.rowOf (N := 128) b := by
  funext i
  refine (shapeCast_addUnit_apply ![128] b shapeCasts_S128_S1x128 i).trans ?_
  exact congrArg b (funext fun a => match a with | ⟨0, _⟩ => rfl)
theorem reshape_row64 (b : S64.Idx → Ideal .f32) :
    (fun i => shapeCast S1x64 b shapeCasts_S64_S1x64 i) = Cert.Gcn.rowOf (N := 64) b := by
  funext i
  refine (shapeCast_addUnit_apply ![64] b shapeCasts_S64_S1x64 i).trans ?_
  exact congrArg b (funext fun a => match a with | ⟨0, _⟩ => rfl)

/-- The two rows of the edge list, as the first region leaves them. -/
theorem W2_v1 (c : Dev nD) :
    W2 m ρ c (Proc.devRef .tc main_v1) = Cert.Gcn.srcRow (m ((c : Thread nD τ).loc main_arg1)) :=
  (W2_of_ne m ρ c main_v1 (by decide)).trans (W1_v1 m ρ c)
theorem W2_v3 (c : Dev nD) :
    W2 m ρ c (Proc.devRef .tc main_v3) = Cert.Gcn.dstRow (m ((c : Thread nD τ).loc main_arg1)) :=
  (W2_of_ne m ρ c main_v3 (by decide)).trans (W1_v3 m ρ c)

/-- An argument the first region does not write, as that region leaves it. -/
theorem W2_arg3 (c : Dev nD) : W2 m ρ c (Proc.devRef .tc main_arg3) = m ((c : Thread nD τ).loc main_arg3) :=
  (W2_of_ne m ρ c main_arg3 (by decide)).trans (W1_arg m ρ c main_arg3 (by decide))
theorem W2_arg4 (c : Dev nD) : W2 m ρ c (Proc.devRef .tc main_arg4) = m ((c : Thread nD τ).loc main_arg4) :=
  (W2_of_ne m ρ c main_arg4 (by decide)).trans (W1_arg m ρ c main_arg4 (by decide))
theorem W2_arg5 (c : Dev nD) : W2 m ρ c (Proc.devRef .tc main_arg5) = m ((c : Thread nD τ).loc main_arg5) :=
  (W2_of_ne m ρ c main_arg5 (by decide)).trans (W1_arg m ρ c main_arg5 (by decide))

/-- The first region leaves the product of the features by the first weight. -/
theorem W2_v4 (c : Dev nD) :
    W2 m ρ c (Proc.devRef .tc main_v4)
      = Cert.Gcn.mm (M := 100000) (K := 512) (N := 128) (m ((c : Thread nD τ).loc main_arg0)) (m ((c : Thread nD τ).loc main_arg2)) := by
  refine (W2_arr m ρ c 2).trans ((RegionValue.region0_array (V1 m ρ) c).trans ?_)
  rw [show V1 m ρ c main_arg0 = m ((c : Thread nD τ).loc main_arg0) from W1_arg m ρ c main_arg0 (by decide),
    show V1 m ρ c main_arg2 = m ((c : Thread nD τ).loc main_arg2) from W1_arg m ρ c main_arg2 (by decide)]

/-- The second region is entered with the aggregated product and the first bias as a row, -/
theorem W5_v43_eq (c : Dev nD) :
    W5 m ρ c (Proc.devRef .tc main_v43)
      = Cert.Gcn.aggregate128
          (Cert.Gcn.mm (M := 100000) (K := 512) (N := 128) (m ((c : Thread nD τ).loc main_arg0)) (m ((c : Thread nD τ).loc main_arg2)))
          (Cert.Gcn.withLoops (Cert.Gcn.srcRow (m ((c : Thread nD τ).loc main_arg1))))
          (Cert.Gcn.withLoops (Cert.Gcn.dstRow (m ((c : Thread nD τ).loc main_arg1)))) := by
  rw [W5_v43, W2_v4, W2_v1, W2_v3]
theorem W5_v44_eq (c : Dev nD) :
    W5 m ρ c (Proc.devRef .tc main_v44) = Cert.Gcn.rowOf (N := 128) (m ((c : Thread nD τ).loc main_arg3)) := by
  rw [W5_v44, W2_arg3]
  exact reshape_row128 _

/-- and leaves the hidden features. -/
theorem W6_v45 (c : Dev nD) :
    W6 m ρ c (Proc.devRef .tc main_v45)
      = Cert.Gcn.biasRelu (M := 100000) (N := 128) (W5 m ρ c (Proc.devRef .tc main_v43)) (W5 m ρ c (Proc.devRef .tc main_v44)) :=
  (W6_arr m ρ c 2).trans (RegionValue.region1_array (V5 m ρ) c)

/-- The third region leaves their product by the second weight. -/
theorem W7_v46 (c : Dev nD) :
    W7 m ρ c (Proc.devRef .tc main_v46)
      = Cert.Gcn.mm (M := 100000) (K := 128) (N := 64) (W6 m ρ c (Proc.devRef .tc main_v45)) (m ((c : Thread nD τ).loc main_arg4)) := by
  refine (W7_arr m ρ c 2).trans ((RegionValue.region2_array (V6 m ρ) c).trans ?_)
  rw [show V6 m ρ c main_arg4 = m ((c : Thread nD τ).loc main_arg4) from
    (W6_of_ne m ρ c main_arg4 (by decide)).trans ((W5_arg4 m ρ c).trans (W2_arg4 m ρ c))]

/-- The two rows of the edge list and the second bias, as the third region leaves them. -/
theorem W7_v1 (c : Dev nD) :
    W7 m ρ c (Proc.devRef .tc main_v1) = Cert.Gcn.srcRow (m ((c : Thread nD τ).loc main_arg1)) :=
  (W7_of_ne m ρ c main_v1 (by decide)).trans ((W6_of_ne m ρ c main_v1 (by decide)).trans ((W5_v1 m ρ c).trans (W2_v1 m ρ c)))
theorem W7_v3 (c : Dev nD) :
    W7 m ρ c (Proc.devRef .tc main_v3) = Cert.Gcn.dstRow (m ((c : Thread nD τ).loc main_arg1)) :=
  (W7_of_ne m ρ c main_v3 (by decide)).trans ((W6_of_ne m ρ c main_v3 (by decide)).trans ((W5_v3 m ρ c).trans (W2_v3 m ρ c)))
theorem W7_arg5 (c : Dev nD) : W7 m ρ c (Proc.devRef .tc main_arg5) = m ((c : Thread nD τ).loc main_arg5) :=
  (W7_of_ne m ρ c main_arg5 (by decide)).trans ((W6_of_ne m ρ c main_arg5 (by decide)).trans ((W5_arg5 m ρ c).trans (W2_arg5 m ρ c)))

/-- The last region leaves the aggregated product plus the second bias. -/
theorem W11_v87 (c : Dev nD) :
    W11 m ρ c (Proc.devRef .tc main_v87)
      = Cert.Gcn.biasAdd (M := 100000) (N := 64) (W10 m ρ c (Proc.devRef .tc main_v85)) (W10 m ρ c (Proc.devRef .tc main_v86)) :=
  (W11_arr m ρ c 2).trans (RegionValue.region3_array (V10 m ρ) c)

/-- The result buffer ends at the graph convolution of the argument arrays. -/
theorem result_eq_gcn (c : Dev nD) :
    W11 m ρ c (Proc.devRef .tc main_v87)
      = Cert.Gcn.gcn (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W11_v87, W10_v85, W10_v86, W7_v46, W6_v45, W5_v43_eq, W5_v44_eq, W7_v1, W7_v3, W7_arg5, reshape_row64]
  rfl

end AtIdeal

end Cert.KernelIdeal.Fold

end
-- ==== Proof.RefValue.lean ====
/-
  The reference computes the two-layer graph convolution `Cert.Gcn.gcn`.

  Its run ends with the result at the composed term of its operations; that term is, operation for operation, the
  two layers `twoLayers` of its argument arrays (for any float family: nothing is computed, the two terms are the
  same text). At the ideal instance each dense stage of `twoLayers` is the corresponding whole-array function: the
  general dot product is the matrix product `mm` (its element is the sum over the contracted axis), and a bias
  vector broadcast to a row and then down the rows, added, is `biasAdd` of the vector as a row — with the maximum
  against the zero splat, `biasRelu`.
-/
import proofs.«155988_j7215545057921_1_alg».proof.Proof.RefRun
import proofs.«155988_j7215545057921_1_alg».proof.Proof.Gcn
import Idealize.ShloMosaic.Lib.Pipeline.Value
import Idealize.ShloMosaic.Lib.ValueIdx

set_option maxRecDepth 16384

noncomputable section

namespace Cert.Gcn

open Cert.ReferenceIdeal Cert.ReferenceIdeal.Gen Idealize.ShloMosaic Idealize.ShloMosaic.TcCoe Idealize.SL.Sem
open Idealize.ShloMosaic.ValueIdx

section AnyFamily

variable {F : FTy → Type} [FloatOps F]

/-- The reference run's result term is the two layers of its argument arrays. -/
theorem res_eq_twoLayers (m : (ℓ : Loc nD τ sig) → Buf (Elt F) ℓ) (c : Dev nD) :
    Cert.ReferenceIdeal.ValueP.res_main_v90 m c
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 twoLayers aggregate64 aggregate128 edgeNorm invSqrtDeg degree wrapIdx
    withLoops srcRow dstRow
  rfl

end AnyFamily

/-- The first layer's general dot product is the matrix product. -/
theorem dot1_eq (x : FVec Ideal S100000x512 .f32) (w : FVec Ideal S512x128 .f32) :
    Host.dotGeneral (F := Ideal) dot_S100000x512_S512x128_S100000x128_1_0_0_1_n_n none x w
      = mm (M := 100000) (K := 512) (N := 128) x w :=
  host_dotGeneral_eq_mm _ none x w

/-- The second layer's general dot product is the matrix product. -/
theorem dot2_eq (x : FVec Ideal S100000x128 .f32) (w : FVec Ideal S128x64 .f32) :
    Host.dotGeneral (F := Ideal) dot_S100000x128_S128x64_S100000x64_1_0_0_1_n_n none x w
      = mm (M := 100000) (K := 128) (N := 64) x w :=
  host_dotGeneral_eq_mm _ none x w

/-- The first layer's bias, broadcast to a row and down the rows, added, and the maximum against the zero splat:
    `biasRelu` of the bias as a row. -/
theorem bias1_eq (a : FVec Ideal S100000x128 .f32) (b : FVec Ideal S128 .f32) :
    maximumf
        (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = biasRelu (M := 100000) (N := 128) a (rowOf (N := 128) b) := by
  funext i
  obtain ⟨p, q, rfl⟩ : ∃ (p : Fin 100000) (q : Fin 128), i = ix2 p q := ⟨i 0, i 1, eq_ix2 i⟩
  rw [maximumf_apply, addf_apply,
    broadcastInDim_apply ![0, 1] bcast_S1x128_S100000x128_0_1 _ (ix2 p q) (ix2 0 q)
      (fun a => match a with | ⟨0, _⟩ => rfl | ⟨1, _⟩ => rfl),
    broadcastInDim_apply ![1] bcast_S128_S1x128_1 b (ix2 0 q) (ix1 q) (fun a => match a with | ⟨0, _⟩ => rfl),
    broadcastInDim_apply ![] bcast_S_S100000x128 _ (ix2 p q) ix0 (fun a => a.elim0), constant_apply]
  rfl

/-- The second layer's bias, broadcast to a row and down the rows, added: `biasAdd` of the bias as a row. -/
theorem bias2_eq (a : FVec Ideal S100000x64 .f32) (b : FVec Ideal S64 .f32) :
    addf a (broadcastInDim S100000x64 ![0, 1] bcast_S1x64_S100000x64_0_1 (broadcastInDim S1x64 ![1] bcast_S64_S1x64_1 b))
      = biasAdd (M := 100000) (N := 64) a (rowOf (N := 64) b) := by
  funext i
  obtain ⟨p, q, rfl⟩ : ∃ (p : Fin 100000) (q : Fin 64), i = ix2 p q := ⟨i 0, i 1, eq_ix2 i⟩
  rw [addf_apply,
    broadcastInDim_apply ![0, 1] bcast_S1x64_S100000x64_0_1 _ (ix2 p q) (ix2 0 q)
      (fun a => match a with | ⟨0, _⟩ => rfl | ⟨1, _⟩ => rfl),
    broadcastInDim_apply ![1] bcast_S64_S1x64_1 b (ix2 0 q) (ix1 q) (fun a => match a with | ⟨0, _⟩ => rfl)]
  rfl

/-- At the ideal instance the reference's two layers are the graph convolution. -/
theorem twoLayers_eq_gcn (x : (⟨S100000x512, .f32⟩ : BufTy).Contents (Elt Ideal)) (e : (⟨S2x1600000, .i32⟩ : BufTy).Contents (Elt Ideal))
    (w1 : (⟨S512x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    twoLayers (F := Ideal) x e w1 b1 w2 b2 = gcn x e w1 b1 w2 b2 := by
  unfold twoLayers gcn
  rw [dot1_eq, bias1_eq, dot2_eq, bias2_eq]

/-- The reference's result term, at the ideal instance, is the graph convolution of its argument arrays. -/
theorem res_eq_gcn (m : (ℓ : Loc nD τ sig) → Buf (Elt Ideal) ℓ) (c : Dev nD) :
    Cert.ReferenceIdeal.ValueP.res_main_v90 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (res_eq_twoLayers m c).trans (twoLayers_eq_gcn _ _ _ _ _ _)

end Cert.Gcn

end
-- ==== Proof.lean ====
/-
  A two-layer graph convolution, `out = A (max (A (x · w1) + b1) 0 · w2) + b2`, with `A` the normalised
  neighbourhood aggregation over the edge list with self loops: the kernel program against the reference, equal over
  the extended reals.

  The kernel computes the two products and the two bias steps in four tiled regions and leaves the aggregation to
  host operations; the reference computes every stage with one host operation. The aggregation is the same
  operations in both programs, so it is carried as one function of the features and the edge list
  (`Cert.Gcn.aggregate128`, `aggregate64`) and never opened. What is proved is that each tiled region leaves the
  whole-array function of its stage: the products `Cert.Gcn.mm` (a block of rows of the product is the product of
  that block of rows, and the blocks tile the rows; the multiply-accumulate into zero and the general dot product
  are both the plain sum over the contracted axis), the bias steps `Cert.Gcn.biasRelu` and `biasAdd` (pointwise,
  the bias row read at the column). Both programs then end at `Cert.Gcn.gcn` of their argument arrays, and the
  arguments agree. No law of the extended reals beyond these readings is used, and the precondition is not opened.

  The three frames are the generated ones (the reference's is its run with the result dropped); the
  idealization rewrote nothing, so `preserves` is trivial.
-/
import proofs.«155988_j7215545057921_1_alg».proof.Defs
import proofs.«155988_j7215545057921_1_alg».proof.Proof.Gen.Kernel
import proofs.«155988_j7215545057921_1_alg».proof.Proof.Gen.Kernel.Frame
import proofs.«155988_j7215545057921_1_alg».proof.Proof.Gen.KernelIdeal
import proofs.«155988_j7215545057921_1_alg».proof.Proof.Gen.KernelIdeal.Frame
import proofs.«155988_j7215545057921_1_alg».proof.Proof.Gen.ReferenceIdeal
import proofs.«155988_j7215545057921_1_alg».proof.Proof.Gen.Pre_finite_inputs
import proofs.«155988_j7215545057921_1_alg».proof.Proof.KernelRun
import proofs.«155988_j7215545057921_1_alg».proof.Proof.KernelFold
import proofs.«155988_j7215545057921_1_alg».proof.Proof.RefRun
import proofs.«155988_j7215545057921_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the graph convolution of the argument arrays, which agree. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq_gcn m ρ c), (h c).2⟩)
      (Cert.KernelIdeal.GenP.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.res_eq_gcn, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
